-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x384x384x3 : Shape := ⟨4, ![64, 384, 384, 3]⟩
abbrev S_ : Shape := ⟨0, ![]⟩

class Facts : Prop where
  bcast_S_S64x384x384x3 : S_.BroadcastsInDim S64x384x384x3 (![] : Fin 0 → Fin S64x384x384x3.rank)
  reducesTo_S64x384x384x3_S_d0_1_2_3 : S64x384x384x3.ReducesTo [0, 1, 2, 3] S_
  h_S_ : 0 < S_.numel

variable [Facts]

def fn {F : FTy → Type} [FloatOps F] (main_arg0 : FVec F S64x384x384x3 .f32) : IVec S_ 1 :=
  let main_v0 : FVec F S64x384x384x3 .f32 := Host.absf main_arg0
  let main_cst : FVec F S_ .f32 := constant S_ .f32 0x7F800000#32
  let main_v1 : FVec F S64x384x384x3 .f32 := broadcastInDim S64x384x384x3 ![] bcast_S_S64x384x384x3 main_cst
  let main_v2 : IVec S64x384x384x3 1 := cmpf .olt main_v0 main_v1
  let main_c : IVec S_ 1 := constantI S_ 1 1#1
  let main_v3 : IVec S_ 1 := (fun x v => Host.reduce IntOp.andi x v reducesTo_S64x384x384x3_S_d0_1_2_3 h_S_) main_v2 main_c
  main_v3
-- ==== Kernel.lean ====
abbrev S64x384x384x3 : Shape := ⟨4, ![64, 384, 384, 3]⟩
abbrev S64x576x16x16x3 : Shape := ⟨5, ![64, 576, 16, 16, 3]⟩
abbrev S1x32x384x3 : Shape := ⟨4, ![1, 32, 384, 3]⟩
abbrev S1x48x16x16x3 : Shape := ⟨5, ![1, 48, 16, 16, 3]⟩
abbrev S1x16x16x3 : Shape := ⟨4, ![1, 16, 16, 3]⟩
abbrev S16x16x3 : Shape := ⟨3, ![16, 16, 3]⟩
abbrev S1x1x16x16x3 : Shape := ⟨5, ![1, 1, 16, 16, 3]⟩

abbrev nBuf : Space → Nat
  | .hbm => 2
  | .vmem => 4
  | .smem => 0
  | _ => 0

abbrev bufTy : (tb : Table) → Fin (tcTables nBuf tb) → BufTy
  | .hbm, ⟨0, _⟩ => ⟨S64x384x384x3, .f32⟩
  | .hbm, ⟨1, _⟩ => ⟨S64x576x16x16x3, .f32⟩
  | .local _ .vmem, ⟨0, _⟩ => ⟨S1x32x384x3, .f32⟩
  | .local _ .vmem, ⟨1, _⟩ => ⟨S1x32x384x3, .f32⟩
  | .local _ .vmem, ⟨2, _⟩ => ⟨S1x48x16x16x3, .f32⟩
  | .local _ .vmem, ⟨3, _⟩ => ⟨S1x48x16x16x3, .f32⟩
  | _, _ => ⟨S64x384x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x16x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x384x3_S1x16x16x3_0_0_0_0 : ∀ a, (![0, 0, 0, 0] : Fin 4 → Nat) a + S1x16x16x3.size a ≤ S1x32x384x3.size a
  h_S1x16x16x3 : 0 < S1x16x16x3.numel
  shapeCasts_S1x16x16x3_S16x16x3 : S1x16x16x3.ShapeCasts S16x16x3
  inb_S1x48x16x16x3_S1x1x16x16x3_0_0_0_0_0 : ∀ a, (![0, 0, 0, 0, 0] : Fin 5 → Nat) a + S1x1x16x16x3.size a ≤ S1x48x16x16x3.size a
  h_S1x1x16x16x3 : 0 < S1x1x16x16x3.numel
  shapeCasts_S1x1x16x16x3_S16x16x3 : S1x1x16x16x3.ShapeCasts S16x16x3
  shapeCasts_S16x16x3_S1x1x16x16x3 : S16x16x3.ShapeCasts S1x1x16x16x3
  inb_S1x32x384x3_S1x16x16x3_0_0_16_0 : ∀ a, (![0, 0, 16, 0] : Fin 4 → Nat) a + S1x16x16x3.size a ≤ S1x32x384x3.size a
  inb_S1x48x16x16x3_S1x1x16x16x3_0_1_0_0_0 : ∀ a, (![0, 1, 0, 0, 0] : Fin 5 → Nat) a + S1x1x16x16x3.size a ≤ S1x48x16x16x3.size a
  inb_S1x32x384x3_S1x16x16x3_0_0_32_0 : ∀ a, (![0, 0, 32, 0] : Fin 4 → Nat) a + S1x16x16x3.size a ≤ S1x32x384x3.size a
  inb_S1x48x16x16x3_S1x1x16x16x3_0_2_0_0_0 : ∀ a, (![0, 2, 0, 0, 0] : Fin 5 → Nat) a + S1x1x16x16x3.size a ≤ S1x48x16x16x3.size a
  inb_S1x32x384x3_S1x16x16x3_0_0_48_0 : ∀ a, (![0, 0, 48, 0] : Fin 4 → Nat) a + S1x16x16x3.size a ≤ S1x32x384x3.size a
  inb_S1x48x16x16x3_S1x1x16x16x3_0_3_0_0_0 : ∀ a, (![0, 3, 0, 0, 0] : Fin 5 → Nat) a + S1x1x16x16x3.size a ≤ S1x48x16x16x3.size a
  inb_S1x32x384x3_S1x16x16x3_0_0_64_0 : ∀ a, (![0, 0, 64, 0] : Fin 4 → Nat) a + S1x16x16x3.size a ≤ S1x32x384x3.size a
  inb_S1x48x16x16x3_S1x1x16x16x3_0_4_0_0_0 : ∀ a, (![0, 4, 0, 0, 0] : Fin 5 → Nat) a + S1x1x16x16x3.size a ≤ S1x48x16x16x3.size a
  inb_S1x32x384x3_S1x16x16x3_0_0_80_0 : ∀ a, (![0, 0, 80, 0] : Fin 4 → Nat) a + S1x16x16x3.size a ≤ S1x32x384x3.size a
  inb_S1x48x16x16x3_S1x1x16x16x3_0_5_0_0_0 : ∀ a, (![0, 5, 0, 0, 0] : Fin 5 → Nat) a + S1x1x16x16x3.size a ≤ S1x48x16x16x3.size a
  inb_S1x32x384x3_S1x16x16x3_0_0_96_0 : ∀ a, (![0, 0, 96, 0] : Fin 4 → Nat) a + S1x16x16x3.size a ≤ S1x32x384x3.size a
  inb_S1x48x16x16x3_S1x1x16x16x3_0_6_0_0_0 : ∀ a, (![0, 6, 0, 0, 0] : Fin 5 → Nat) a + S1x1x16x16x3.size a ≤ S1x48x16x16x3.size a
  inb_S1x32x384x3_S1x16x16x3_0_0_112_0 : ∀ a, (![0, 0, 112, 0] : Fin 4 → Nat) a + S1x16x16x3.size a ≤ S1x32x384x3.size a
  inb_S1x48x16x16x3_S1x1x16x16x3_0_7_0_0_0 : ∀ a, (![0, 7, 0, 0, 0] : Fin 5 → Nat) a + S1x1x16x16x3.size a ≤ S1x48x16x16x3.size a
  inb_S1x32x384x3_S1x16x16x3_0_0_128_0 : ∀ a, (![0, 0, 128, 0] : Fin 4 → Nat) a + S1x16x16x3.size a ≤ S1x32x384x3.size a
  inb_S1x48x16x16x3_S1x1x16x16x3_0_8_0_0_0 : ∀ a, (![0, 8, 0, 0, 0] : Fin 5 → Nat) a + S1x1x16x16x3.size a ≤ S1x48x16x16x3.size a
  inb_S1x32x384x3_S1x16x16x3_0_0_144_0 : ∀ a, (![0, 0, 144, 0] : Fin 4 → Nat) a + S1x16x16x3.size a ≤ S1x32x384x3.size a
  inb_S1x48x16x16x3_S1x1x16x16x3_0_9_0_0_0 : ∀ a, (![0, 9, 0, 0, 0] : Fin 5 → Nat) a + S1x1x16x16x3.size a ≤ S1x48x16x16x3.size a
  inb_S1x32x384x3_S1x16x16x3_0_0_160_0 : ∀ a, (![0, 0, 160, 0] : Fin 4 → Nat) a + S1x16x16x3.size a ≤ S1x32x384x3.size a
  inb_S1x48x16x16x3_S1x1x16x16x3_0_10_0_0_0 : ∀ a, (![0, 10, 0, 0, 0] : Fin 5 → Nat) a + S1x1x16x16x3.size a ≤ S1x48x16x16x3.size a
  inb_S1x32x384x3_S1x16x16x3_0_0_176_0 : ∀ a, (![0, 0, 176, 0] : Fin 4 → Nat) a + S1x16x16x3.size a ≤ S1x32x384x3.size a
  inb_S1x48x16x16x3_S1x1x16x16x3_0_11_0_0_0 : ∀ a, (![0, 11, 0, 0, 0] : Fin 5 → Nat) a + S1x1x16x16x3.size a ≤ S1x48x16x16x3.size a
  inb_S1x32x384x3_S1x16x16x3_0_0_192_0 : ∀ a, (![0, 0, 192, 0] : Fin 4 → Nat) a + S1x16x16x3.size a ≤ S1x32x384x3.size a
  inb_S1x48x16x16x3_S1x1x16x16x3_0_12_0_0_0 : ∀ a, (![0, 12, 0, 0, 0] : Fin 5 → Nat) a + S1x1x16x16x3.size a ≤ S1x48x16x16x3.size a
  inb_S1x32x384x3_S1x16x16x3_0_0_208_0 : ∀ a, (![0, 0, 208, 0] : Fin 4 → Nat) a + S1x16x16x3.size a ≤ S1x32x384x3.size a
  inb_S1x48x16x16x3_S1x1x16x16x3_0_13_0_0_0 : ∀ a, (![0, 13, 0, 0, 0] : Fin 5 → Nat) a + S1x1x16x16x3.size a ≤ S1x48x16x16x3.size a
  inb_S1x32x384x3_S1x16x16x3_0_0_224_0 : ∀ a, (![0, 0, 224, 0] : Fin 4 → Nat) a + S1x16x16x3.size a ≤ S1x32x384x3.size a
  inb_S1x48x16x16x3_S1x1x16x16x3_0_14_0_0_0 : ∀ a, (![0, 14, 0, 0, 0] : Fin 5 → Nat) a + S1x1x16x16x3.size a ≤ S1x48x16x16x3.size a
  inb_S1x32x384x3_S1x16x16x3_0_0_240_0 : ∀ a, (![0, 0, 240, 0] : Fin 4 → Nat) a + S1x16x16x3.size a ≤ S1x32x384x3.size a
  inb_S1x48x16x16x3_S1x1x16x16x3_0_15_0_0_0 : ∀ a, (![0, 15, 0, 0, 0] : Fin 5 → Nat) a + S1x1x16x16x3.size a ≤ S1x48x16x16x3.size a
  inb_S1x32x384x3_S1x16x16x3_0_0_256_0 : ∀ a, (![0, 0, 256, 0] : Fin 4 → Nat) a + S1x16x16x3.size a ≤ S1x32x384x3.size a
  inb_S1x48x16x16x3_S1x1x16x16x3_0_16_0_0_0 : ∀ a, (![0, 16, 0, 0, 0] : Fin 5 → Nat) a + S1x1x16x16x3.size a ≤ S1x48x16x16x3.size a
  inb_S1x32x384x3_S1x16x16x3_0_0_272_0 : ∀ a, (![0, 0, 272, 0] : Fin 4 → Nat) a + S1x16x16x3.size a ≤ S1x32x384x3.size a
  inb_S1x48x16x16x3_S1x1x16x16x3_0_17_0_0_0 : ∀ a, (![0, 17, 0, 0, 0] : Fin 5 → Nat) a + S1x1x16x16x3.size a ≤ S1x48x16x16x3.size a
  inb_S1x32x384x3_S1x16x16x3_0_0_288_0 : ∀ a, (![0, 0, 288, 0] : Fin 4 → Nat) a + S1x16x16x3.size a ≤ S1x32x384x3.size a
  inb_S1x48x16x16x3_S1x1x16x16x3_0_18_0_0_0 : ∀ a, (![0, 18, 0, 0, 0] : Fin 5 → Nat) a + S1x1x16x16x3.size a ≤ S1x48x16x16x3.size a
  inb_S1x32x384x3_S1x16x16x3_0_0_304_0 : ∀ a, (![0, 0, 304, 0] : Fin 4 → Nat) a + S1x16x16x3.size a ≤ S1x32x384x3.size a
  inb_S1x48x16x16x3_S1x1x16x16x3_0_19_0_0_0 : ∀ a, (![0, 19, 0, 0, 0] : Fin 5 → Nat) a + S1x1x16x16x3.size a ≤ S1x48x16x16x3.size a
  inb_S1x32x384x3_S1x16x16x3_0_0_320_0 : ∀ a, (![0, 0, 320, 0] : Fin 4 → Nat) a + S1x16x16x3.size a ≤ S1x32x384x3.size a
  inb_S1x48x16x16x3_S1x1x16x16x3_0_20_0_0_0 : ∀ a, (![0, 20, 0, 0, 0] : Fin 5 → Nat) a + S1x1x16x16x3.size a ≤ S1x48x16x16x3.size a
  inb_S1x32x384x3_S1x16x16x3_0_0_336_0 : ∀ a, (![0, 0, 336, 0] : Fin 4 → Nat) a + S1x16x16x3.size a ≤ S1x32x384x3.size a
  inb_S1x48x16x16x3_S1x1x16x16x3_0_21_0_0_0 : ∀ a, (![0, 21, 0, 0, 0] : Fin 5 → Nat) a + S1x1x16x16x3.size a ≤ S1x48x16x16x3.size a
  inb_S1x32x384x3_S1x16x16x3_0_0_352_0 : ∀ a, (![0, 0, 352, 0] : Fin 4 → Nat) a + S1x16x16x3.size a ≤ S1x32x384x3.size a
  inb_S1x48x16x16x3_S1x1x16x16x3_0_22_0_0_0 : ∀ a, (![0, 22, 0, 0, 0] : Fin 5 → Nat) a + S1x1x16x16x3.size a ≤ S1x48x16x16x3.size a
  inb_S1x32x384x3_S1x16x16x3_0_0_368_0 : ∀ a, (![0, 0, 368, 0] : Fin 4 → Nat) a + S1x16x16x3.size a ≤ S1x32x384x3.size a
  inb_S1x48x16x16x3_S1x1x16x16x3_0_23_0_0_0 : ∀ a, (![0, 23, 0, 0, 0] : Fin 5 → Nat) a + S1x1x16x16x3.size a ≤ S1x48x16x16x3.size a
  inb_S1x32x384x3_S1x16x16x3_0_16_0_0 : ∀ a, (![0, 16, 0, 0] : Fin 4 → Nat) a + S1x16x16x3.size a ≤ S1x32x384x3.size a
  inb_S1x48x16x16x3_S1x1x16x16x3_0_24_0_0_0 : ∀ a, (![0, 24, 0, 0, 0] : Fin 5 → Nat) a + S1x1x16x16x3.size a ≤ S1x48x16x16x3.size a
  inb_S1x32x384x3_S1x16x16x3_0_16_16_0 : ∀ a, (![0, 16, 16, 0] : Fin 4 → Nat) a + S1x16x16x3.size a ≤ S1x32x384x3.size a
  inb_S1x48x16x16x3_S1x1x16x16x3_0_25_0_0_0 : ∀ a, (![0, 25, 0, 0, 0] : Fin 5 → Nat) a + S1x1x16x16x3.size a ≤ S1x48x16x16x3.size a
  inb_S1x32x384x3_S1x16x16x3_0_16_32_0 : ∀ a, (![0, 16, 32, 0] : Fin 4 → Nat) a + S1x16x16x3.size a ≤ S1x32x384x3.size a
  inb_S1x48x16x16x3_S1x1x16x16x3_0_26_0_0_0 : ∀ a, (![0, 26, 0, 0, 0] : Fin 5 → Nat) a + S1x1x16x16x3.size a ≤ S1x48x16x16x3.size a
  inb_S1x32x384x3_S1x16x16x3_0_16_48_0 : ∀ a, (![0, 16, 48, 0] : Fin 4 → Nat) a + S1x16x16x3.size a ≤ S1x32x384x3.size a
  inb_S1x48x16x16x3_S1x1x16x16x3_0_27_0_0_0 : ∀ a, (![0, 27, 0, 0, 0] : Fin 5 → Nat) a + S1x1x16x16x3.size a ≤ S1x48x16x16x3.size a
  inb_S1x32x384x3_S1x16x16x3_0_16_64_0 : ∀ a, (![0, 16, 64, 0] : Fin 4 → Nat) a + S1x16x16x3.size a ≤ S1x32x384x3.size a
  inb_S1x48x16x16x3_S1x1x16x16x3_0_28_0_0_0 : ∀ a, (![0, 28, 0, 0, 0] : Fin 5 → Nat) a + S1x1x16x16x3.size a ≤ S1x48x16x16x3.size a
  inb_S1x32x384x3_S1x16x16x3_0_16_80_0 : ∀ a, (![0, 16, 80, 0] : Fin 4 → Nat) a + S1x16x16x3.size a ≤ S1x32x384x3.size a
  inb_S1x48x16x16x3_S1x1x16x16x3_0_29_0_0_0 : ∀ a, (![0, 29, 0, 0, 0] : Fin 5 → Nat) a + S1x1x16x16x3.size a ≤ S1x48x16x16x3.size a
  inb_S1x32x384x3_S1x16x16x3_0_16_96_0 : ∀ a, (![0, 16, 96, 0] : Fin 4 → Nat) a + S1x16x16x3.size a ≤ S1x32x384x3.size a
  inb_S1x48x16x16x3_S1x1x16x16x3_0_30_0_0_0 : ∀ a, (![0, 30, 0, 0, 0] : Fin 5 → Nat) a + S1x1x16x16x3.size a ≤ S1x48x16x16x3.size a
  inb_S1x32x384x3_S1x16x16x3_0_16_112_0 : ∀ a, (![0, 16, 112, 0] : Fin 4 → Nat) a + S1x16x16x3.size a ≤ S1x32x384x3.size a
  inb_S1x48x16x16x3_S1x1x16x16x3_0_31_0_0_0 : ∀ a, (![0, 31, 0, 0, 0] : Fin 5 → Nat) a + S1x1x16x16x3.size a ≤ S1x48x16x16x3.size a
  inb_S1x32x384x3_S1x16x16x3_0_16_128_0 : ∀ a, (![0, 16, 128, 0] : Fin 4 → Nat) a + S1x16x16x3.size a ≤ S1x32x384x3.size a
  inb_S1x48x16x16x3_S1x1x16x16x3_0_32_0_0_0 : ∀ a, (![0, 32, 0, 0, 0] : Fin 5 → Nat) a + S1x1x16x16x3.size a ≤ S1x48x16x16x3.size a
  inb_S1x32x384x3_S1x16x16x3_0_16_144_0 : ∀ a, (![0, 16, 144, 0] : Fin 4 → Nat) a + S1x16x16x3.size a ≤ S1x32x384x3.size a
  inb_S1x48x16x16x3_S1x1x16x16x3_0_33_0_0_0 : ∀ a, (![0, 33, 0, 0, 0] : Fin 5 → Nat) a + S1x1x16x16x3.size a ≤ S1x48x16x16x3.size a
  inb_S1x32x384x3_S1x16x16x3_0_16_160_0 : ∀ a, (![0, 16, 160, 0] : Fin 4 → Nat) a + S1x16x16x3.size a ≤ S1x32x384x3.size a
  inb_S1x48x16x16x3_S1x1x16x16x3_0_34_0_0_0 : ∀ a, (![0, 34, 0, 0, 0] : Fin 5 → Nat) a + S1x1x16x16x3.size a ≤ S1x48x16x16x3.size a
  inb_S1x32x384x3_S1x16x16x3_0_16_176_0 : ∀ a, (![0, 16, 176, 0] : Fin 4 → Nat) a + S1x16x16x3.size a ≤ S1x32x384x3.size a
  inb_S1x48x16x16x3_S1x1x16x16x3_0_35_0_0_0 : ∀ a, (![0, 35, 0, 0, 0] : Fin 5 → Nat) a + S1x1x16x16x3.size a ≤ S1x48x16x16x3.size a
  inb_S1x32x384x3_S1x16x16x3_0_16_192_0 : ∀ a, (![0, 16, 192, 0] : Fin 4 → Nat) a + S1x16x16x3.size a ≤ S1x32x384x3.size a
  inb_S1x48x16x16x3_S1x1x16x16x3_0_36_0_0_0 : ∀ a, (![0, 36, 0, 0, 0] : Fin 5 → Nat) a + S1x1x16x16x3.size a ≤ S1x48x16x16x3.size a
  inb_S1x32x384x3_S1x16x16x3_0_16_208_0 : ∀ a, (![0, 16, 208, 0] : Fin 4 → Nat) a + S1x16x16x3.size a ≤ S1x32x384x3.size a
  inb_S1x48x16x16x3_S1x1x16x16x3_0_37_0_0_0 : ∀ a, (![0, 37, 0, 0, 0] : Fin 5 → Nat) a + S1x1x16x16x3.size a ≤ S1x48x16x16x3.size a
  inb_S1x32x384x3_S1x16x16x3_0_16_224_0 : ∀ a, (![0, 16, 224, 0] : Fin 4 → Nat) a + S1x16x16x3.size a ≤ S1x32x384x3.size a
  inb_S1x48x16x16x3_S1x1x16x16x3_0_38_0_0_0 : ∀ a, (![0, 38, 0, 0, 0] : Fin 5 → Nat) a + S1x1x16x16x3.size a ≤ S1x48x16x16x3.size a
  inb_S1x32x384x3_S1x16x16x3_0_16_240_0 : ∀ a, (![0, 16, 240, 0] : Fin 4 → Nat) a + S1x16x16x3.size a ≤ S1x32x384x3.size a
  inb_S1x48x16x16x3_S1x1x16x16x3_0_39_0_0_0 : ∀ a, (![0, 39, 0, 0, 0] : Fin 5 → Nat) a + S1x1x16x16x3.size a ≤ S1x48x16x16x3.size a
  inb_S1x32x384x3_S1x16x16x3_0_16_256_0 : ∀ a, (![0, 16, 256, 0] : Fin 4 → Nat) a + S1x16x16x3.size a ≤ S1x32x384x3.size a
  inb_S1x48x16x16x3_S1x1x16x16x3_0_40_0_0_0 : ∀ a, (![0, 40, 0, 0, 0] : Fin 5 → Nat) a + S1x1x16x16x3.size a ≤ S1x48x16x16x3.size a
  inb_S1x32x384x3_S1x16x16x3_0_16_272_0 : ∀ a, (![0, 16, 272, 0] : Fin 4 → Nat) a + S1x16x16x3.size a ≤ S1x32x384x3.size a
  inb_S1x48x16x16x3_S1x1x16x16x3_0_41_0_0_0 : ∀ a, (![0, 41, 0, 0, 0] : Fin 5 → Nat) a + S1x1x16x16x3.size a ≤ S1x48x16x16x3.size a
  inb_S1x32x384x3_S1x16x16x3_0_16_288_0 : ∀ a, (![0, 16, 288, 0] : Fin 4 → Nat) a + S1x16x16x3.size a ≤ S1x32x384x3.size a
  inb_S1x48x16x16x3_S1x1x16x16x3_0_42_0_0_0 : ∀ a, (![0, 42, 0, 0, 0] : Fin 5 → Nat) a + S1x1x16x16x3.size a ≤ S1x48x16x16x3.size a
  inb_S1x32x384x3_S1x16x16x3_0_16_304_0 : ∀ a, (![0, 16, 304, 0] : Fin 4 → Nat) a + S1x16x16x3.size a ≤ S1x32x384x3.size a
  inb_S1x48x16x16x3_S1x1x16x16x3_0_43_0_0_0 : ∀ a, (![0, 43, 0, 0, 0] : Fin 5 → Nat) a + S1x1x16x16x3.size a ≤ S1x48x16x16x3.size a
  inb_S1x32x384x3_S1x16x16x3_0_16_320_0 : ∀ a, (![0, 16, 320, 0] : Fin 4 → Nat) a + S1x16x16x3.size a ≤ S1x32x384x3.size a
  inb_S1x48x16x16x3_S1x1x16x16x3_0_44_0_0_0 : ∀ a, (![0, 44, 0, 0, 0] : Fin 5 → Nat) a + S1x1x16x16x3.size a ≤ S1x48x16x16x3.size a
  inb_S1x32x384x3_S1x16x16x3_0_16_336_0 : ∀ a, (![0, 16, 336, 0] : Fin 4 → Nat) a + S1x16x16x3.size a ≤ S1x32x384x3.size a
  inb_S1x48x16x16x3_S1x1x16x16x3_0_45_0_0_0 : ∀ a, (![0, 45, 0, 0, 0] : Fin 5 → Nat) a + S1x1x16x16x3.size a ≤ S1x48x16x16x3.size a
  inb_S1x32x384x3_S1x16x16x3_0_16_352_0 : ∀ a, (![0, 16, 352, 0] : Fin 4 → Nat) a + S1x16x16x3.size a ≤ S1x32x384x3.size a
  inb_S1x48x16x16x3_S1x1x16x16x3_0_46_0_0_0 : ∀ a, (![0, 46, 0, 0, 0] : Fin 5 → Nat) a + S1x1x16x16x3.size a ≤ S1x48x16x16x3.size a
  inb_S1x32x384x3_S1x16x16x3_0_16_368_0 : ∀ a, (![0, 16, 368, 0] : Fin 4 → Nat) a + S1x16x16x3.size a ≤ S1x32x384x3.size a
  inb_S1x48x16x16x3_S1x1x16x16x3_0_47_0_0_0 : ∀ a, (![0, 47, 0, 0, 0] : Fin 5 → Nat) a + S1x1x16x16x3.size a ≤ S1x48x16x16x3.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x384x3.size a ≤ S64x384x384x3.size a
  hwx0_0 : ∀ i : grid0.Coords, EltTy.bits .f32 = 32 ∨ (Rect.block (s := S64x384x384x3) S1x32x384x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x16x16x3.size a ≤ S64x576x16x16x3.size a
  hwx0_1 : ∀ i : grid0.Coords, EltTy.bits .f32 = 32 ∨ (Rect.block (s := S64x576x16x16x3) S1x48x16x16x3.size (cc0_transform_1 i) (hinb0_1 i)).WholeWords (EltTy.packing .f32)

variable [Facts₀]

abbrev win0_0 : Pipeline.Window sig grid0 :=
  Pipeline.Window.ofSpec (Memref.whole main_arg0) S1x32x384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x48x16x16x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x384x384x3 : Shape := ⟨4, ![64, 384, 384, 3]⟩
abbrev S64x24x16x24x16x3 : Shape := ⟨6, ![64, 24, 16, 24, 16, 3]⟩
abbrev S64x24x24x16x16x3 : Shape := ⟨6, ![64, 24, 24, 16, 16, 3]⟩
abbrev S64x576x16x16x3 : Shape := ⟨5, ![64, 576, 16, 16, 3]⟩

abbrev nBuf : Space → Nat
  | .hbm => 4
  | .vmem => 0
  | .smem => 0
  | _ => 0

abbrev bufTy : (tb : Table) → Fin (tcTables nBuf tb) → BufTy
  | .hbm, ⟨0, _⟩ => ⟨S64x384x384x3, .f32⟩
  | .hbm, ⟨1, _⟩ => ⟨S64x24x16x24x16x3, .f32⟩
  | .hbm, ⟨2, _⟩ => ⟨S64x24x24x16x16x3, .f32⟩
  | .hbm, ⟨3, _⟩ => ⟨S64x576x16x16x3, .f32⟩
  | _, _ => ⟨S64x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x384x384x3_S64x24x16x24x16x3 : S64x384x384x3.ShapeCasts S64x24x16x24x16x3
  transposes_S64x24x16x24x16x3_S64x24x24x16x16x3_0_1_3_2_4_5 : S64x24x16x24x16x3.Transposes [0, 1, 3, 2, 4, 5] S64x24x24x16x16x3
  shapeCasts_S64x24x24x16x16x3_S64x576x16x16x3 : S64x24x24x16x16x3.ShapeCasts S64x576x16x16x3

variable [Facts₀]

class Facts : Prop extends Facts₀ where

variable [Facts]
-- ==== Proof.KernelStrip.lean ====
/-
  What one grid step of the kernel leaves in its output buffer.

  A grid step holds a strip of one image — 32 consecutive rows, that is two patch-rows, at full width — and fills a
  buffer of 48 patches: patch `k` of the step is the one in the strip's patch-row `k / 24` and patch-column `k % 24`.
  The body copies the 48 patches one by one: it loads the 16 × 16 × 3 tile of the strip at rows `16 (k / 24) …` and
  columns `16 (k % 24) …`, views it without its leading unit axis and then with two leading unit axes (which keeps
  every entry where it is), and stores it as patch `k`. So every one of the 48 stores writes the SAME function of the
  strip at the entries it covers — entry `(0, k, y, x, ch)` is the strip's pixel `(0, 16 (k / 24) + y, 16 (k % 24) + x,
  ch)` — and the stores tile the buffer: the buffer ends holding that function everywhere.
-/
import proofs.«154898_j67473936220598_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Strip

open Cert.KernelIdeal Cert.KernelIdeal.Gen
open Idealize.ShloMosaic Idealize.ShloMosaic.ValueIdx

variable {F : FTy → Type} [FloatOps F]

/-- Row `y` of the step's patch `k` is a row of the strip. -/
theorem stripRow_lt (j : S1x48x16x16x3.Idx) : 16 * ((j 1).val / 24) + (j 2).val < 32 := by
  have h1 : (j 1).val < 48 := (j 1).isLt
  have h2 : (j 2).val < 16 := (j 2).isLt
  omega

/-- Column `x` of the step's patch `k` is a column of the strip. -/
theorem stripCol_lt (j : S1x48x16x16x3.Idx) : 16 * ((j 1).val % 24) + (j 3).val < 384 := by
  have h3 : (j 3).val < 16 := (j 3).isLt
  omega

/-- The strip's pixel under entry `(0, k, y, x, ch)` of the step's 48 patches. -/
def stripPixel (j : S1x48x16x16x3.Idx) : S1x32x384x3.Idx :=
  ix4 (0 : Fin 1) (⟨16 * ((j 1).val / 24) + (j 2).val, stripRow_lt j⟩ : Fin 32)
    (⟨16 * ((j 1).val % 24) + (j 3).val, stripCol_lt j⟩ : Fin 384) (⟨(j 4).val, (j 4).isLt⟩ : Fin 3)

/-- The 48 patches of a strip. -/
def stripPatches {α : Type} (X : S1x32x384x3.Idx → α) : S1x48x16x16x3.Idx → α := fun j => X (stripPixel j)

/-- A [1, 16, 16, 3] tile viewed as [16, 16, 3] and then as [1, 1, 16, 16, 3] keeps its entries: `(0, 0, y, x, ch)` reads
    `(0, y, x, ch)`. -/
theorem tile_apply {α : Type} (v : S1x16x16x3.Idx → α) (h1 : S1x16x16x3.ShapeCasts S16x16x3)
    (h2 : S16x16x3.ShapeCasts S1x1x16x16x3) (x : S1x1x16x16x3.Idx) :
    shapeCast S1x1x16x16x3 (shapeCast S16x16x3 v h1) h2 x
      = v (ix4 (0 : Fin 1) (⟨(x 2).val, (x 2).isLt⟩ : Fin 16) (⟨(x 3).val, (x 3).isLt⟩ : Fin 16) (⟨(x 4).val, (x 4).isLt⟩ : Fin 3)) := by
  refine (shapeCast_apply (shapeCast S16x16x3 v h1) h2 x
    (ix3 (⟨(x 2).val, (x 2).isLt⟩ : Fin 16) (⟨(x 3).val, (x 3).isLt⟩ : Fin 16) (⟨(x 4).val, (x 4).isLt⟩ : Fin 3)) ?_).trans ?_
  · have e0 : (x 0).val = 0 := by have h : (x 0).val < 1 := (x 0).isLt; omega
    have e1 : (x 1).val = 0 := by have h : (x 1).val < 1 := (x 1).isLt; omega
    rw [Shape.rowMajor_val_three, Shape.rowMajor_val_five]
    show ((x 2).val * 16 + (x 3).val) * 3 + (x 4).val
      = ((((x 0).val * 1 + (x 1).val) * 16 + (x 2).val) * 16 + (x 3).val) * 3 + (x 4).val
    omega
  · exact shapeCast_1abc_abc_apply v h1 _ _ _

/-- ONE STORE: the tile loaded at rows `r …`, columns `c …` of the strip and stored as patch `k` is, at every entry the
    store covers, the strip's patches there — when `r = 16 (k / 24)` and `c = 16 (k % 24)`. -/
theorem store_eq (x0 : Vec F S1x32x384x3 .f32) (k r c : Nat)
    (inbL : ∀ a, (![0, r, c, 0] : Fin 4 → Nat) a + S1x16x16x3.size a ≤ S1x32x384x3.size a)
    (inbS : ∀ a, (![0, k, 0, 0, 0] : Fin 5 → Nat) a + S1x1x16x16x3.size a ≤ S1x48x16x16x3.size a)
    (hr : r = 16 * (k / 24)) (hc : c = 16 * (k % 24))
    (h1 : S1x16x16x3.ShapeCasts S16x16x3) (h2 : S16x16x3.ShapeCasts S1x1x16x16x3) (x : S1x1x16x16x3.Idx) :
    shapeCast S1x1x16x16x3 (shapeCast S16x16x3 (View.ld x0 (Rect.unit (s := S1x32x384x3) ![0, r, c, 0] S1x16x16x3.size inbL)) h1) h2 x
      = stripPatches x0 ((Rect.unit (s := S1x48x16x16x3) ![0, k, 0, 0, 0] S1x1x16x16x3.size inbS).emb x) := by
  rw [tile_apply]
  have e1 : (x 1).val = 0 := by have h : (x 1).val < 1 := (x 1).isLt; omega
  refine congrArg x0 (funext fun a => Fin.ext ?_)
  match a with
  | ⟨0, _⟩ => rfl
  | ⟨1, _⟩ =>
    show r + 1 * (x 2).val = 16 * ((k + 1 * (x 1).val) / 24) + (0 + 1 * (x 2).val)
    omega
  | ⟨2, _⟩ =>
    show c + 1 * (x 3).val = 16 * ((k + 1 * (x 1).val) % 24) + (0 + 1 * (x 3).val)
    omega
  | ⟨3, _⟩ => rfl

/-- THE BUFFER AFTER THE BODY is the 48 patches of the strip the step holds: each of the 48 stores writes them where it
    covers (`store_eq`, its tile's offsets being those of its patch), and the stores cover the buffer. -/
theorem out_eq (x0 : Vec F S1x32x384x3 .f32) : out0_1 x0 = stripPatches x0 := by
  funext y
  unfold out0_1
  refine View.canon_apply_of_pieces (stripPatches x0) _ ?_ y (cover0_1 ..)
  intro p hp x
  simp only [List.mem_cons, List.not_mem_nil, or_false] at hp
  rcases hp with rfl | rfl | rfl | rfl | rfl | rfl | rfl | rfl | rfl | rfl | rfl | rfl
    | rfl | rfl | rfl | rfl | rfl | rfl | rfl | rfl | rfl | rfl | rfl | rfl
    | rfl | rfl | rfl | rfl | rfl | rfl | rfl | rfl | rfl | rfl | rfl | rfl
    | rfl | rfl | rfl | rfl | rfl | rfl | rfl | rfl | rfl | rfl | rfl | rfl
  all_goals exact store_eq x0 _ _ _ (by decide) (by decide) (by rfl) (by rfl) _ _ x

end Cert.KernelIdeal.Strip

end
-- ==== Proof.Patches.lean ====
/-
  The patch stack as ONE function of the image batch.

  An image of 384 × 384 pixels is cut into 24 × 24 patches of 16 × 16 pixels that do not overlap; the patches of one
  image are stacked in reading order, patch `n` being the one in patch-row `n / 24` and patch-column `n % 24`. So
  entry `(b, n, y, x, ch)` of the stack is the pixel of image `b` in row `16 (n / 24) + y` and column
  `16 (n % 24) + x`, channel `ch`: the stack is the image re-indexed, nothing is computed, and the statement holds
  for values of any kind.
-/
import Idealize.ShloMosaic.Lib.ValueIdx

namespace Cert.Patches

open Idealize.ShloMosaic Idealize.ShloMosaic.ValueIdx

/-- The image batch: 64 images, 384 rows, 384 columns, 3 channels. -/
abbrev Img : Shape := ⟨4, ![64, 384, 384, 3]⟩

/-- The patch stack: per image 576 = 24 · 24 patches of 16 rows, 16 columns, 3 channels. -/
abbrev Stack : Shape := ⟨5, ![64, 576, 16, 16, 3]⟩

/-- Row `y` of a patch in patch-row `n / 24` is an image row. -/
theorem row_lt (i : Stack.Idx) : 16 * ((i 1).val / 24) + (i 2).val < 384 := by
  have h1 : (i 1).val < 576 := (i 1).isLt
  have h2 : (i 2).val < 16 := (i 2).isLt
  omega

/-- Column `x` of a patch in patch-column `n % 24` is an image column. -/
theorem col_lt (i : Stack.Idx) : 16 * ((i 1).val % 24) + (i 3).val < 384 := by
  have h3 : (i 3).val < 16 := (i 3).isLt
  omega

/-- The pixel under entry `(b, n, y, x, ch)` of the stack: image `b`, row `16 (n / 24) + y`, column
    `16 (n % 24) + x`, channel `ch`. -/
def pixelOf (i : Stack.Idx) : Img.Idx :=
  ix4 (⟨(i 0).val, (i 0).isLt⟩ : Fin 64) (⟨16 * ((i 1).val / 24) + (i 2).val, row_lt i⟩ : Fin 384)
    (⟨16 * ((i 1).val % 24) + (i 3).val, col_lt i⟩ : Fin 384) (⟨(i 4).val, (i 4).isLt⟩ : Fin 3)

/-- The patch stack of an image batch. -/
def patches {α : Type} (X : Img.Idx → α) : Stack.Idx → α := fun i => X (pixelOf i)

end Cert.Patches
-- ==== Proof.KernelStack.lean ====
/-
  The kernel's output array after the run is the patch stack of its argument.

  The grid has 64 · 12 points: point `t = 12 b + g` holds strip `g` of image `b` (rows `32 g … 32 g + 31`) and writes
  patches `48 g … 48 g + 47` of image `b`. Patch `k` of the step is patch `n = 48 g + k` of the image, and since 48 is
  two patch-rows, `n / 24 = 2 g + k / 24` and `n % 24 = k % 24`: the strip's pixel `(16 (k / 24) + y, 16 (k % 24) + x)`
  is the image's pixel `(16 (n / 24) + y, 16 (n % 24) + x)`. So what point `t` writes back is block `t` of the patch
  stack, and the 768 blocks cover the output array: entry `(b, n, …)` lies in the block of point `12 b + n / 48`.
-/
import proofs.«154898_j67473936220598_1_alg».proof.Proof.Gen.KernelIdeal.Value
import proofs.«154898_j67473936220598_1_alg».proof.Proof.KernelStrip
import proofs.«154898_j67473936220598_1_alg».proof.Proof.Patches

set_option maxRecDepth 16384

noncomputable section

namespace Cert.KernelIdeal.Stack

open Cert.KernelIdeal Cert.KernelIdeal.Gen Cert.KernelIdeal.Value Cert.KernelIdeal.Strip
open Idealize.ShloMosaic Idealize.ShloMosaic.TcCoe Idealize.SL.Sem Cert.Patches
open Idealize.ShloMosaic.Pipeline (Dat)

variable {F : FTy → Type} [FloatOps F]
variable (m : (ℓ : Loc nD τ sig) → Buf (Elt F) ℓ) (ρ : Dev nD → PrngReg)

/-- The printed index maps at every grid point `t`: image `t / 12` and strip `t % 12` for both windows, the other
    block indices zero. -/
theorem idx_facts : ∀ t : Fin cfg0.N,
    win0_0.index t (0 : Fin 4) = t.val / 12 ∧ win0_0.index t (1 : Fin 4) = t.val % 12
    ∧ win0_0.index t (2 : Fin 4) = 0 ∧ win0_0.index t (3 : Fin 4) = 0
    ∧ win0_1.index t (0 : Fin 5) = t.val / 12 ∧ win0_1.index t (1 : Fin 5) = t.val % 12
    ∧ win0_1.index t (2 : Fin 5) = 0 ∧ win0_1.index t (3 : Fin 5) = 0 ∧ win0_1.index t (4 : Fin 5) = 0 :=
  (by decide +kernel : ∀ t : Fin grid0.N, _)

/-- WHAT POINT `t` WRITES BACK is block `t` of the patch stack of the argument array. -/
theorem flushed_eq (c : Dev nD) (t : Fin cfg0.N) :
    (dats m 0 c).flushed 1 t = ((cfg0.win 1).blk t).view.read (Elt F) (patches (V m c main_arg0)) := by
  rw [flushed1]
  funext j
  refine (congrFun (out_eq (F := F) (iblk m c 0 t)) _).trans ?_
  obtain ⟨a0, a1, a2, a3, b0, b1, b2, b3, b4⟩ := idx_facts t
  have h0 : (j 0).val < 1 := (j 0).isLt
  have h1 : (j 1).val < 48 := (j 1).isLt
  show V m c main_arg0 (((cfg0.win 0).blk t).view.emb (stripPixel ((cfg0.win 1).xinj (grid0.coords t) j)))
    = V m c main_arg0 (pixelOf (((cfg0.win 1).blk t).view.emb j))
  refine congrArg (V m c main_arg0) (funext fun a => Fin.ext ?_)
  match a with
  | ⟨0, _⟩ =>
    show win0_0.index t (0 : Fin 4) * 1 + 1 * 0 = win0_1.index t (0 : Fin 5) * 1 + 1 * (j 0).val
    omega
  | ⟨1, _⟩ =>
    show win0_0.index t (1 : Fin 4) * 32 + 1 * (16 * ((j 1).val / 24) + (j 2).val)
      = 16 * ((win0_1.index t (1 : Fin 5) * 48 + 1 * (j 1).val) / 24) + (win0_1.index t (2 : Fin 5) * 16 + 1 * (j 2).val)
    omega
  | ⟨2, _⟩ =>
    show win0_0.index t (2 : Fin 4) * 384 + 1 * (16 * ((j 1).val % 24) + (j 3).val)
      = 16 * ((win0_1.index t (1 : Fin 5) * 48 + 1 * (j 1).val) % 24) + (win0_1.index t (3 : Fin 5) * 16 + 1 * (j 3).val)
    omega
  | ⟨3, _⟩ =>
    show win0_0.index t (3 : Fin 4) * 3 + 1 * (j 4).val = win0_1.index t (4 : Fin 5) * 3 + 1 * (j 4).val
    omega

/-- An entry of the output array is in point `t`'s block iff each coordinate is in the block's range on its axis. -/
theorem mem_blk (t : Fin cfg0.N) (i : S64x576x16x16x3.Idx) :
    i ∈ ((cfg0.win 1).blk t).view.set ↔ ∀ a : Fin 5, win0_1.index t a * S1x48x16x16x3.size a ≤ (i a).val
      ∧ (i a).val < win0_1.index t a * S1x48x16x16x3.size a + S1x48x16x16x3.size a := by
  show i ∈ ((View.whole main_v0).slice (win0_1.rect t)).set ↔ _
  rw [View.set_slice_whole, Rect.mem_set_unit]
  exact Iff.rfl

/-- THE BLOCKS COVER THE ARRAY: entry `(b, n, y, x, ch)` is in the block of point `12 b + n / 48`. -/
theorem cover (i : S64x576x16x16x3.Idx) :
    ∃ t : Fin cfg0.N, (cfg0.win 1).flush t = true ∧ i ∈ ((cfg0.win 1).blk t).view.set := by
  have h0 : (i 0).val < 64 := (i 0).isLt
  have h1 : (i 1).val < 576 := (i 1).isLt
  have h2 : (i 2).val < 16 := (i 2).isLt
  have h3 : (i 3).val < 16 := (i 3).isLt
  have h4 : (i 4).val < 3 := (i 4).isLt
  have hN : grid0.N = 768 := N_0
  have hlt : (i 0).val * 12 + (i 1).val / 48 < grid0.N := by omega
  obtain ⟨t, ht⟩ : ∃ t : Fin cfg0.N, t.val = (i 0).val * 12 + (i 1).val / 48 := ⟨⟨_, hlt⟩, rfl⟩
  obtain ⟨-, -, -, -, b0, b1, b2, b3, b4⟩ := idx_facts t
  refine ⟨t, flush0_1 t, ?_⟩
  rw [mem_blk]
  intro a
  match a with
  | ⟨0, _⟩ =>
    show win0_1.index t (0 : Fin 5) * 1 ≤ (i 0).val ∧ (i 0).val < win0_1.index t (0 : Fin 5) * 1 + 1
    omega
  | ⟨1, _⟩ =>
    show win0_1.index t (1 : Fin 5) * 48 ≤ (i 1).val ∧ (i 1).val < win0_1.index t (1 : Fin 5) * 48 + 48
    omega
  | ⟨2, _⟩ =>
    show win0_1.index t (2 : Fin 5) * 16 ≤ (i 2).val ∧ (i 2).val < win0_1.index t (2 : Fin 5) * 16 + 16
    omega
  | ⟨3, _⟩ =>
    show win0_1.index t (3 : Fin 5) * 16 ≤ (i 3).val ∧ (i 3).val < win0_1.index t (3 : Fin 5) * 16 + 16
    omega
  | ⟨4, _⟩ =>
    show win0_1.index t (4 : Fin 5) * 3 ≤ (i 4).val ∧ (i 4).val < win0_1.index t (4 : Fin 5) * 3 + 3
    omega

/-- THE OUTPUT ARRAY after the run is the patch stack of the argument array. -/
theorem final (c : Dev nD) : (dats m 0 c).arrAt 1 cfg0.N = patches (m ((c : Thread nD τ).loc main_arg0)) :=
  (dats m 0 c).arrAt_eq_of_cover 1 (patches (V m c main_arg0)) (fun t _ => flushed_eq m c t) cover

/-- The kernel's run: every weakly fair execution ends with the result array at the patch stack of the argument and
    the argument unchanged. -/
theorem run : θ_run defs (onTc (τ := τ) (main (F := F))) ⟨m, fun _ => 0, ρ⟩ fun r => ∀ c : Dev nD,
      r.2.mem ((c : Thread nD τ).loc main_v0) = patches (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Stack

end
-- ==== Proof.RefPatches.lean ====
/-
  The reference computes the patch stack.

  It views the image batch [64, 384, 384, 3] as [64, 24, 16, 24, 16, 3] (a row is patch-row · 16 + row in the patch, a
  column is patch-column · 16 + column in the patch), exchanges the two middle axes so that patch-row and patch-column
  stand together, [64, 24, 24, 16, 16, 3], and merges them into the patch number: [64, 576, 16, 16, 3], patch
  `n = 24 · patch-row + patch-column`. Read backwards at an entry `(b, n, y, x, ch)`: the last view reads
  `(b, n / 24, n % 24, y, x, ch)`, the exchange reads `(b, n / 24, y, n % 24, x, ch)`, and the first view reads the
  pixel `(b, 16 (n / 24) + y, 16 (n % 24) + x, ch)`. Both views keep the row-major position, which is what is checked.
-/
import proofs.«154898_j67473936220598_1_alg».proof.Proof.Gen.ReferenceIdeal.Read
import proofs.«154898_j67473936220598_1_alg».proof.Proof.Patches
import Idealize.ShloMosaic.Lib.ValueIdxRank6

noncomputable section

namespace Cert.ReferenceIdeal.RefValue

open Cert.ReferenceIdeal Cert.ReferenceIdeal.Gen Cert.ReferenceIdeal.Read
open Idealize.ShloMosaic Idealize.ShloMosaic.ValueIdx Cert.Patches

variable {F : FTy → Type} [FloatOps F]

theorem patchRow_lt (i : S64x576x16x16x3.Idx) : (i 1).val / 24 < 24 := by
  have h1 : (i 1).val < 576 := (i 1).isLt
  omega

theorem patchCol_lt (i : S64x576x16x16x3.Idx) : (i 1).val % 24 < 24 := by omega

/-- Entry `(b, n, y, x, ch)` of the stack with the patch number split: `(b, n / 24, n % 24, y, x, ch)`. -/
def split (i : S64x576x16x16x3.Idx) : S64x24x24x16x16x3.Idx :=
  ix6 (⟨(i 0).val, (i 0).isLt⟩ : Fin 64) (⟨(i 1).val / 24, patchRow_lt i⟩ : Fin 24) (⟨(i 1).val % 24, patchCol_lt i⟩ : Fin 24)
    (⟨(i 2).val, (i 2).isLt⟩ : Fin 16) (⟨(i 3).val, (i 3).isLt⟩ : Fin 16) (⟨(i 4).val, (i 4).isLt⟩ : Fin 3)

/-- The reference's result is the patch stack of its argument. -/
theorem result_eq (x0 : (⟨S64x384x384x3, .f32⟩ : BufTy).Contents (Elt F)) :
    val_main_v2 (F := F) x0 = patches x0 := by
  funext i
  unfold val_main_v2
  refine (shapeCast_apply (val_main_v1 (F := F) x0) _ i (split i) ?_).trans ?_
  · rw [Shape.rowMajor_val_six, Shape.rowMajor_val_five]
    show (((((i 0).val * 24 + (i 1).val / 24) * 24 + (i 1).val % 24) * 16 + (i 2).val) * 16 + (i 3).val) * 3 + (i 4).val
      = ((((i 0).val * 576 + (i 1).val) * 16 + (i 2).val) * 16 + (i 3).val) * 3 + (i 4).val
    omega
  rw [val_main_v1_apply]
  unfold val_main_v0
  refine (shapeCast_apply x0 _ (idx_main_v1 (split i)) (pixelOf i) ?_).trans rfl
  rw [Shape.rowMajor_val_four, Shape.rowMajor_val_six]
  show (((i 0).val * 384 + (16 * ((i 1).val / 24) + (i 2).val)) * 384 + (16 * ((i 1).val % 24) + (i 3).val)) * 3 + (i 4).val
    = (((((i 0).val * 24 + (i 1).val / 24) * 16 + (i 2).val) * 24 + (i 1).val % 24) * 16 + (i 3).val) * 3 + (i 4).val
  omega

end Cert.ReferenceIdeal.RefValue

end
-- ==== Proof.lean ====
/-
  Non-overlapping 16 × 16 patch extraction: a Pallas kernel against its jnp reference, equal over the extended reals.

  Both programs re-index an image batch [64, 384, 384, 3] into the patch stack [64, 576, 16, 16, 3] and compute nothing:
  entry `(b, n, y, x, ch)` of the result is the pixel of image `b` in row `16 (n / 24) + y` and column
  `16 (n % 24) + x`, channel `ch` (Proof/Patches.lean: `patches`).
  * The reference gets there by two views and an exchange of axes, each read at an entry (Proof/RefPatches.lean).
  * The kernel goes over a grid of 64 · 12 steps, each holding a strip of 32 rows of one image and copying its 48
    patches tile by tile into the step's output block (Proof/KernelStrip.lean); the blocks of the 768 steps are the
    blocks of the patch stack and cover it (Proof/KernelStack.lean).
  Equal entries are the SAME entry of the argument on both sides, so no property of the values is used: the
  precondition (finite inputs) is never opened. The idealization rewrote nothing (no float operation occurs), so
  `preserves` has no conjunct.
-/
import proofs.«154898_j67473936220598_1_alg».proof.Defs
import proofs.«154898_j67473936220598_1_alg».proof.Proof.Gen.Kernel
import proofs.«154898_j67473936220598_1_alg».proof.Proof.Gen.Kernel.Skeleton
import proofs.«154898_j67473936220598_1_alg».proof.Proof.Gen.Kernel.Launch
import proofs.«154898_j67473936220598_1_alg».proof.Proof.Gen.Kernel.Points
import proofs.«154898_j67473936220598_1_alg».proof.Proof.Gen.Kernel.Frame
import proofs.«154898_j67473936220598_1_alg».proof.Proof.Gen.KernelIdeal
import proofs.«154898_j67473936220598_1_alg».proof.Proof.Gen.KernelIdeal.Skeleton
import proofs.«154898_j67473936220598_1_alg».proof.Proof.Gen.KernelIdeal.Launch
import proofs.«154898_j67473936220598_1_alg».proof.Proof.Gen.KernelIdeal.Points
import proofs.«154898_j67473936220598_1_alg».proof.Proof.Gen.KernelIdeal.Frame
import proofs.«154898_j67473936220598_1_alg».proof.Proof.Gen.ReferenceIdeal
import proofs.«154898_j67473936220598_1_alg».proof.Proof.Gen.Pre_finite_inputs
import proofs.«154898_j67473936220598_1_alg».proof.Proof.Gen.KernelIdeal.Value
import proofs.«154898_j67473936220598_1_alg».proof.Proof.Gen.ReferenceIdeal.Run
import proofs.«154898_j67473936220598_1_alg».proof.Proof.Gen.ReferenceIdeal.Read
import proofs.«154898_j67473936220598_1_alg».proof.Proof.KernelStack
import proofs.«154898_j67473936220598_1_alg».proof.Proof.RefPatches
import Idealize.ShloMosaic.Adequacy
import Idealize.ShloMosaic.Init

noncomputable section

namespace Cert.Proof

open Idealize.ShloMosaic Idealize.SL.Sem

/-- The kernel as printed runs and leaves its argument alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument alone: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the image batch both programs end holding its patch stack: the kernel by its blocks
    (`Stack.run`), the reference by its two views and its exchange of axes (`RefValue.result_eq`). -/
theorem algebraic : Cert.algebraic_KernelIdeal_ReferenceIdeal := by
  intro m ρ m' ρ' _ hagree
  refine ⟨_, Cert.KernelIdeal.Stack.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
